-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x64 : Shape := ⟨3, ![2048, 256, 64]⟩
abbrev S2048x256x8x16 : Shape := ⟨4, ![2048, 256, 8, 16]⟩
abbrev S2048x256x8 : Shape := ⟨3, ![2048, 256, 8]⟩
abbrev S80x256 : Shape := ⟨2, ![80, 256]⟩
abbrev S256 : Shape := ⟨1, ![256]⟩
abbrev S_ : Shape := ⟨0, ![]⟩

class Facts : Prop where
  bcast_S_S2048x256x64 : S_.BroadcastsInDim S2048x256x64 (![] : Fin 0 → Fin S2048x256x64.rank)
  reducesTo_S2048x256x64_S_d0_1_2 : S2048x256x64.ReducesTo [0, 1, 2] S_
  h_S_ : 0 < S_.numel
  bcast_S_S2048x256x8x16 : S_.BroadcastsInDim S2048x256x8x16 (![] : Fin 0 → Fin S2048x256x8x16.rank)
  reducesTo_S2048x256x8x16_S_d0_1_2_3 : S2048x256x8x16.ReducesTo [0, 1, 2, 3] S_
  bcast_S_S80x256 : S_.BroadcastsInDim S80x256 (![] : Fin 0 → Fin S80x256.rank)
  reducesTo_S80x256_S_d0_1 : S80x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S2048x256x64 .f32) (main_arg1 : FVec F S2048x256x8x16 .f32) (main_arg2 : IVec S2048x256x8 32) (main_arg3 : FVec F S80x256 .f32) (main_arg4 : FVec F S256 .f32) : IVec S_ 1 :=
  let main_v0 : FVec F S2048x256x64 .f32 := Host.absf main_arg0
  let main_cst : FVec F S_ .f32 := constant S_ .f32 0x7F800000#32
  let main_v1 : FVec F S2048x256x64 .f32 := broadcastInDim S2048x256x64 ![] bcast_S_S2048x256x64 main_cst
  let main_v2 : IVec S2048x256x64 1 := cmpf .olt main_v0 main_v1
  let main_c : IVec S_ 1 := constantI S_ 1 1#1
  let main_v3 : IVec S_ 1 := (fun x v => Host.reduce IntOp.andi x v reducesTo_S2048x256x64_S_d0_1_2 h_S_) main_v2 main_c
  let main_v4 : FVec F S2048x256x8x16 .f32 := Host.absf main_arg1
  let main_cst_0 : FVec F S_ .f32 := constant S_ .f32 0x7F800000#32
  let main_v5 : FVec F S2048x256x8x16 .f32 := broadcastInDim S2048x256x8x16 ![] bcast_S_S2048x256x8x16 main_cst_0
  let main_v6 : IVec S2048x256x8x16 1 := cmpf .olt main_v4 main_v5
  let main_c_1 : IVec S_ 1 := constantI S_ 1 1#1
  let main_v7 : IVec S_ 1 := (fun x v => Host.reduce IntOp.andi x v reducesTo_S2048x256x8x16_S_d0_1_2_3 h_S_) main_v6 main_c_1
  let main_v8 : IVec S_ 1 := andi main_v3 main_v7
  let main_v9 : FVec F S80x256 .f32 := Host.absf main_arg3
  let main_cst_2 : FVec F S_ .f32 := constant S_ .f32 0x7F800000#32
  let main_v10 : FVec F S80x256 .f32 := broadcastInDim S80x256 ![] bcast_S_S80x256 main_cst_2
  let main_v11 : IVec S80x256 1 := cmpf .olt main_v9 main_v10
  let main_c_3 : IVec S_ 1 := constantI S_ 1 1#1
  let main_v12 : IVec S_ 1 := (fun x v => Host.reduce IntOp.andi x v reducesTo_S80x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S2048x256x64 : Shape := ⟨3, ![2048, 256, 64]⟩
abbrev S2048x256x8x16 : Shape := ⟨4, ![2048, 256, 8, 16]⟩
abbrev S2048x256x8 : Shape := ⟨3, ![2048, 256, 8]⟩
abbrev S80x256 : Shape := ⟨2, ![80, 256]⟩
abbrev S256 : Shape := ⟨1, ![256]⟩
abbrev S2048x256 : Shape := ⟨2, ![2048, 256]⟩
abbrev S128x64x64 : Shape := ⟨3, ![128, 64, 64]⟩
abbrev S128x64x8x16 : Shape := ⟨4, ![128, 64, 8, 16]⟩
abbrev S128x64x8 : Shape := ⟨3, ![128, 64, 8]⟩
abbrev S128x256 : Shape := ⟨2, ![128, 256]⟩
abbrev S128x64x16 : Shape := ⟨3, ![128, 64, 16]⟩
abbrev S128x64 : Shape := ⟨2, ![128, 64]⟩
abbrev S128x64x1 : Shape := ⟨3, ![128, 64, 1]⟩
abbrev S128x64x80 : Shape := ⟨3, ![128, 64, 80]⟩
abbrev S8192x80 : Shape := ⟨2, ![8192, 80]⟩
abbrev S8192x256 : Shape := ⟨2, ![8192, 256]⟩
abbrev S1x256 : Shape := ⟨2, ![1, 256]⟩
abbrev S128x64x256 : Shape := ⟨3, ![128, 64, 256]⟩

abbrev nBuf : Space → Nat
  | .hbm => 6
  | .vmem => 11
  | .smem => 0
  | _ => 0

abbrev bufTy : (tb : Table) → Fin (tcTables nBuf tb) → BufTy
  | .hbm, ⟨0, _⟩ => ⟨S2048x256x64, .f32⟩
  | .hbm, ⟨1, _⟩ => ⟨S2048x256x8x16, .f32⟩
  | .hbm, ⟨2, _⟩ => ⟨S2048x256x8, .i32⟩
  | .hbm, ⟨3, _⟩ => ⟨S80x256, .f32⟩
  | .hbm, ⟨4, _⟩ => ⟨S256, .f32⟩
  | .hbm, ⟨5, _⟩ => ⟨S2048x256, .f32⟩
  | .local _ .vmem, ⟨0, _⟩ => ⟨S128x64x64, .f32⟩
  | .local _ .vmem, ⟨1, _⟩ => ⟨S128x64x64, .f32⟩
  | .local _ .vmem, ⟨2, _⟩ => ⟨S128x64x8x16, .f32⟩
  | .local _ .vmem, ⟨3, _⟩ => ⟨S128x64x8x16, .f32⟩
  | .local _ .vmem, ⟨4, _⟩ => ⟨S128x64x8, .i32⟩
  | .local _ .vmem, ⟨5, _⟩ => ⟨S128x64x8, .i32⟩
  | .local _ .vmem, ⟨6, _⟩ => ⟨S80x256, .f32⟩
  | .local _ .vmem, ⟨7, _⟩ => ⟨S256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | _, _ => ⟨S2048x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_22 : BitVec 32 := 0#32
  let v40 : BitVec 1 := Scalar.cmpi .ne v39 c0_i32_22
  v40

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x64x8x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x64x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S80x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x64x64_S128x64x64_0_0_0 : ∀ a, (![0, 0, 0] : Fin 3 → Nat) a + S128x64x64.size a ≤ S128x64x64.size a
  h_S128x64x64 : 0 < S128x64x64.numel
  inb_S128x64x8x16_S128x64x8x16_0_0_0_0 : ∀ a, (![0, 0, 0, 0] : Fin 4 → Nat) a + S128x64x8x16.size a ≤ S128x64x8x16.size a
  h_S128x64x8x16 : 0 < S128x64x8x16.numel
  inb_S128x64x8_S128x64x8_0_0_0 : ∀ a, (![0, 0, 0] : Fin 3 → Nat) a + S128x64x8.size a ≤ S128x64x8.size a
  h_S128x64x8 : 0 < S128x64x8.numel
  reduces_S128x64x8x16_S128x64x16 : S128x64x8x16.Reduces [2] S128x64x16
  natLt_1_32 : 1 < 32
  reduces_S128x64x8_S128x64 : S128x64x8.Reduces [2] S128x64
  shapeCasts_S128x64_S128x64x1 : S128x64.ShapeCasts S128x64x1
  concatenates_S128x64x64_S128x64x16_S128x64x80_d2 : Shape.Concatenates [S128x64x64, S128x64x16] S128x64x80 2
  shapeCasts_S128x64x80_S8192x80 : S128x64x80.ShapeCasts S8192x80
  bitsLt_bf16_f32 : FTy.bits .bf16 < FTy.bits .f32
  inb_S80x256_S80x256_0_0 : ∀ a, (![0, 0] : Fin 2 → Nat) a + S80x256.size a ≤ S80x256.size a
  h_S80x256 : 0 < S80x256.numel
  inb_S256_S256_0 : ∀ a, (![0] : Fin 1 → Nat) a + S256.size a ≤ S256.size a
  h_S256 : 0 < S256.numel
  shapeCasts_S256_S1x256 : S256.ShapeCasts S1x256
  broadcasts_S1x256_S8192x256 : S1x256.Broadcasts S8192x256
  shapeCasts_S8192x256_S128x64x256 : S8192x256.ShapeCasts S128x64x256
  broadcasts_S128x64x1_S128x64x256 : S128x64x1.Broadcasts S128x64x256
  reduces_S128x64x256_S128x256 : S128x64x256.Reduces [1] S128x256
  dot_S8192x80_S80x256_S8192x256_1_0_0_1_n_n_wf : DotDims.WF S8192x80 S80x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S2048x256x64.size a
  hwx0_0 : ∀ i : grid0.Coords, EltTy.bits .f32 = 32 ∨ (Rect.block (s := S2048x256x64) S128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x8x16.size a ≤ S2048x256x8x16.size a
  hwx0_1 : ∀ i : grid0.Coords, EltTy.bits .f32 = 32 ∨ (Rect.block (s := S2048x256x8x16) S128x64x8x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64x8.size a ≤ S2048x256x8.size a
  hwx0_2 : ∀ i : grid0.Coords, EltTy.bits .i32 = 32 ∨ (Rect.block (s := S2048x256x8) S128x64x8.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S80x256.size a ≤ S80x256.size a
  hwx0_3 : ∀ i : grid0.Coords, EltTy.bits .f32 = 32 ∨ (Rect.block (s := S80x256) S80x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S2048x256.size a
  hwx0_5 : ∀ i : grid0.Coords, EltTy.bits .f32 = 32 ∨ (Rect.block (s := S2048x256) S128x256.size (cc0_transform_5 i) (hinb0_5 i)).WholeWords (EltTy.packing .f32)

variable [Facts₀]

def dot_S8192x80_S80x256_S8192x256_1_0_0_1_n_n : DotDims S8192x80 S80x256 S8192x256 where
  lhsContracting := [1]
  rhsContracting := [0]
  lhsNonContracting := [0]
  rhsNonContracting := [1]
  lhsBatch := []
  rhsBatch := []
  wf := dot_S8192x80_S80x256_S8192x256_1_0_0_1_n_n_wf

abbrev win0_0 : Pipeline.Window sig grid0 :=
  Pipeline.Window.ofSpec (Memref.whole main_arg0) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64x8x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S80x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x256x64 : Shape := ⟨3, ![2048, 256, 64]⟩
abbrev S2048x256x8x16 : Shape := ⟨4, ![2048, 256, 8, 16]⟩
abbrev S2048x256x8 : Shape := ⟨3, ![2048, 256, 8]⟩
abbrev S80x256 : Shape := ⟨2, ![80, 256]⟩
abbrev S256 : Shape := ⟨1, ![256]⟩
abbrev S_ : Shape := ⟨0, ![]⟩
abbrev S2048x256 : Shape := ⟨2, ![2048, 256]⟩
abbrev S2048x256x1 : Shape := ⟨3, ![2048, 256, 1]⟩
abbrev S2048x256x16 : Shape := ⟨3, ![2048, 256, 16]⟩
abbrev S2048x256x80 : Shape := ⟨3, ![2048, 256, 80]⟩
abbrev S2048x256x256 : Shape := ⟨3, ![2048, 256, 256]⟩
abbrev S1x1x256 : Shape := ⟨3, ![1, 1, 256]⟩

abbrev nBuf : Space → Nat
  | .hbm => 30
  | .vmem => 0
  | .smem => 0
  | _ => 0

abbrev bufTy : (tb : Table) → Fin (tcTables nBuf tb) → BufTy
  | .hbm, ⟨0, _⟩ => ⟨S2048x256x64, .f32⟩
  | .hbm, ⟨1, _⟩ => ⟨S2048x256x8x16, .f32⟩
  | .hbm, ⟨2, _⟩ => ⟨S2048x256x8, .i32⟩
  | .hbm, ⟨3, _⟩ => ⟨S80x256, .f32⟩
  | .hbm, ⟨4, _⟩ => ⟨S256, .f32⟩
  | .hbm, ⟨5, _⟩ => ⟨S_, .i32⟩
  | .hbm, ⟨6, _⟩ => ⟨S2048x256x8, .i32⟩
  | .hbm, ⟨7, _⟩ => ⟨S2048x256x8, .i1⟩
  | .hbm, ⟨8, _⟩ => ⟨S2048x256x8, .f32⟩
  | .hbm, ⟨9, _⟩ => ⟨S_, .f32⟩
  | .hbm, ⟨10, _⟩ => ⟨S2048x256, .f32⟩
  | .hbm, ⟨11, _⟩ => ⟨S2048x256x1, .f32⟩
  | .hbm, ⟨12, _⟩ => ⟨S_, .f32⟩
  | .hbm, ⟨13, _⟩ => ⟨S2048x256x1, .f32⟩
  | .hbm, ⟨14, _⟩ => ⟨S2048x256x1, .i1⟩
  | .hbm, ⟨15, _⟩ => ⟨S2048x256x1, .f32⟩
  | .hbm, ⟨16, _⟩ => ⟨S_, .f32⟩
  | .hbm, ⟨17, _⟩ => ⟨S2048x256x16, .f32⟩
  | .hbm, ⟨18, _⟩ => ⟨S2048x256x80, .f32⟩
  | .hbm, ⟨19, _⟩ => ⟨S2048x256x256, .f32⟩
  | .hbm, ⟨20, _⟩ => ⟨S1x1x256, .f32⟩
  | .hbm, ⟨21, _⟩ => ⟨S2048x256x256, .f32⟩
  | .hbm, ⟨22, _⟩ => ⟨S2048x256x256, .f32⟩
  | .hbm, ⟨23, _⟩ => ⟨S_, .f32⟩
  | .hbm, ⟨24, _⟩ => ⟨S2048x256x256, .f32⟩
  | .hbm, ⟨25, _⟩ => ⟨S2048x256x256, .f32⟩
  | .hbm, ⟨26, _⟩ => ⟨S2048x256x256, .f32⟩
  | .hbm, ⟨27, _⟩ => ⟨S2048x256x256, .f32⟩
  | .hbm, ⟨28, _⟩ => ⟨S_, .f32⟩
  | .hbm, ⟨29, _⟩ => ⟨S2048x256, .f32⟩
  | _, _ => ⟨S2048x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S2048x256x8 : S_.BroadcastsInDim S2048x256x8 (![] : Fin 0 → Fin S2048x256x8.rank)
  reducesTo_S2048x256x8_S2048x256_d2 : S2048x256x8.ReducesTo [2] S2048x256
  h_S_ : 0 < S_.numel
  bcast_S2048x256_S2048x256x1_0_1 : S2048x256.BroadcastsInDim S2048x256x1 (![0, 1] : Fin 2 → Fin S2048x256x1.rank)
  bcast_S_S2048x256x1 : S_.BroadcastsInDim S2048x256x1 (![] : Fin 0 → Fin S2048x256x1.rank)
  reducesTo_S2048x256x8x16_S2048x256x16_d2 : S2048x256x8x16.ReducesTo [2] S2048x256x16
  concatenates_S2048x256x64_S2048x256x16_S2048x256x80_d2 : Shape.Concatenates [S2048x256x64, S2048x256x16] S2048x256x80 2
  bcast_S256_S1x1x256_2 : S256.BroadcastsInDim S1x1x256 (![2] : Fin 1 → Fin S1x1x256.rank)
  bcast_S1x1x256_S2048x256x256_0_1_2 : S1x1x256.BroadcastsInDim S2048x256x256 (![0, 1, 2] : Fin 3 → Fin S2048x256x256.rank)
  bcast_S_S2048x256x256 : S_.BroadcastsInDim S2048x256x256 (![] : Fin 0 → Fin S2048x256x256.rank)
  bcast_S2048x256x1_S2048x256x256_0_1_2 : S2048x256x1.BroadcastsInDim S2048x256x256 (![0, 1, 2] : Fin 3 → Fin S2048x256x256.rank)
  reducesTo_S2048x256x256_S2048x256_d1 : S2048x256x256.ReducesTo [1] S2048x256
  dot_S2048x256x80_S80x256_S2048x256x256_2_0_01_1_n_n_wf : DotDims.WF S2048x256x80 S80x256 S2048x256x256 [2] [0] [0, 1] [1] [] []

variable [Facts₀]

def dot_S2048x256x80_S80x256_S2048x256x256_2_0_01_1_n_n : DotDims S2048x256x80 S80x256 S2048x256x256 where
  lhsContracting := [2]
  rhsContracting := [0]
  lhsNonContracting := [0, 1]
  rhsNonContracting := [1]
  lhsBatch := []
  rhsBatch := []
  wf := dot_S2048x256x80_S80x256_S2048x256x256_2_0_01_1_n_n_wf

class Facts : Prop extends Facts₀ where

variable [Facts]
-- ==== Proof.Spec.lean ====
/-
  The layer both programs compute, written once on the extended reals for ONE atom of ONE molecule, and the
  regrouping of a sum over the 256 atoms into four consecutive tiles of 64.

  An atom carries 64 features of its own, 8 neighbour slots each with 16 bond features, and 8 edge words (the word
  -1 marks an empty slot). Its input row has 80 entries: the atom's own 64, then per bond channel the sum over the
  8 slots. The dense layer maps the row through a weight matrix 80 x 256, adds the bias, and clips below at zero.
  The atom's degree is the number of its slots whose edge word is not -1; an atom of degree zero is masked out
  (its row is multiplied by 0, any other by 1). The molecule's result in channel o is the sum over its atoms.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A neighbour slot counts 1 when its edge word is not the padding word -1, else 0. -/
def slot (e : BitVec 32) : EReal := (((IntOp.cmpi .ne e 4294967295#32).toNat : ℝ) : EReal)

/-- Entry f of the atom's input row: one of its own 64 features, or (f ≥ 64) bond channel f - 64 summed over the slots. -/
def feat (r0 : Fin 64 → EReal) (r1 : Fin 8 → Fin 16 → EReal) (f : Fin 80) : EReal :=
  if h : f.val < 64 then r0 ⟨f.val, h⟩ else ∑ d : Fin 8, r1 d ⟨f.val - 64, by have := f.isLt; omega⟩

/-- The atom's degree: how many of its 8 slots are occupied. -/
def deg (r2 : Fin 8 → BitVec 32) : EReal := ∑ d : Fin 8, slot (r2 d)

/-- The mask: 1 when the degree is not zero, else 0. -/
def msk (r2 : Fin 8 → BitVec 32) : EReal := (((Ideal.cmp .one (deg r2) 0).toNat : ℝ) : EReal)

/-- The atom's contribution to output channel o: relu (row · W[:, o] + bias o), masked. -/
def term (r0 : Fin 64 → EReal) (r1 : Fin 8 → Fin 16 → EReal) (r2 : Fin 8 → BitVec 32)
    (W : Fin 80 → Fin 256 → EReal) (bias : Fin 256 → EReal) (o : Fin 256) : EReal :=
  max (∑ f : Fin 80, feat r0 r1 f * W f o + bias o) 0 * msk r2

/-- The whole result: entry (b, o) sums the terms of molecule b's atoms in channel o, each read off the arrays. -/
def G (x0 : (⟨3, ![2048, 256, 64]⟩ : Shape).Idx → EReal) (x1 : (⟨4, ![2048, 256, 8, 16]⟩ : Shape).Idx → EReal)
    (x2 : (⟨3, ![2048, 256, 8]⟩ : Shape).Idx → BitVec 32) (x3 : (⟨2, ![80, 256]⟩ : Shape).Idx → EReal)
    (x4 : (⟨1, ![256]⟩ : Shape).Idx → EReal) (b : Fin 2048) (o : Fin 256) : EReal :=
  ∑ a : Fin 256, term (fun f => x0 (ix3 b a f)) (fun d g => x1 (ix4 b a d g)) (fun d => x2 (ix3 b a d))
    (fun f o' => x3 (ix2 f o')) (fun o' => x4 (ix1 o')) o

/-- A one-bit word widened to 32 bits and read as a signed integer is the bit read as a natural number. -/
theorem bit_signed_eq_unsigned (b : BitVec 1) : (((b.setWidth 32).toInt : ℝ) : EReal) = ((b.toNat : ℝ) : EReal) := by
  have h : ∀ b : BitVec 1, (b.setWidth 32).toInt = (b.toNat : ℤ) := by decide
  rw [h b, Int.cast_natCast]

/-- The sum of h over the 64 atoms of tile j (atoms 64 j … 64 j + 63). -/
def tile (h : Fin 256 → EReal) (j : Fin 4) : EReal :=
  ∑ a : Fin 64, h ⟨a.val + 64 * j.val, by have := a.isLt; have := j.isLt; omega⟩

/-- A sum over the 256 atoms is the sum of its four tiles. -/
theorem sum_tiles (h : Fin 256 → EReal) : ∑ a : Fin 256, h a = tile h 0 + tile h 1 + tile h 2 + tile h 3 := by
  rw [← Equiv.sum_comp (finProdFinEquiv (m := 4) (n := 64)) h, Fintype.sum_prod_type, Fin.sum_univ_four]
  rfl

/-- The tiles added one after the other onto a zero, as an accumulator does, give the sum over all atoms. -/
theorem acc_tiles (h : Fin 256 → EReal) :
    (((0 + tile h 0) + tile h 1) + tile h 2) + tile h 3 = ∑ a : Fin 256, h a := by
  rw [zero_add, sum_tiles]

end Cert.Spec

end
-- ==== Proof.LibLayout3.lean ====
/-
  Rank-three layout forms read at an index, which the library states only for lower ranks.

  * two arrays `[n0, n1, c1]` and `[n0, n1, c2]` joined along the last axis: entry `(p, q, f)` of the result is the
    first array's when `f < c1`, else the second's at `f - c1`;
  * a matrix `[a, b]` viewed as `[a, b, 1]` (a reduction that keeps its axis), and that column block broadcast
    along the unit axis to `[a, b, c]`;
  * the leading two axes of `[a, b, c]` merged into one of `a * b` rows, and split again: row `p * b + q` is `(p, q)`.
-/
import Idealize.ShloMosaic.Lib.Pipeline.Value
import Idealize.ShloMosaic.Lib.ValueIdx

noncomputable section

namespace Cert.LibLayout3

open Idealize.ShloMosaic Idealize.ShloMosaic.ValueIdx

variable {α : Type}

/-- Two rank-3 arrays joined along the last axis, read at `(p, q, f)`: the coordinate `f` falls in the first piece
    when `f < c1` and in the second, at `f - c1`, otherwise; the other coordinates are kept. -/
theorem concat_last_apply {n0 n1 c1 c2 c : ℕ} (x₁ : (⟨3, ![n0, n1, c1]⟩ : Shape).Idx → α)
    (x₂ : (⟨3, ![n0, n1, c2]⟩ : Shape).Idx → α)
    (h : Shape.Concatenates [(⟨3, ![n0, n1, c1]⟩ : Shape), ⟨3, ![n0, n1, c2]⟩] ⟨3, ![n0, n1, c]⟩ 2) (hc : c = c1 + c2)
    (p : Fin n0) (q : Fin n1) (f : Fin c) :
    concatenate ⟨3, ![n0, n1, c]⟩ 2 [⟨_, x₁⟩, ⟨_, x₂⟩] h (ix3 p q f)
      = if hf : f.val < c1 then x₁ (ix3 p q ⟨f.val, hf⟩)
        else x₂ (ix3 p q ⟨f.val - c1, by have := f.isLt; omega⟩) := by
  split
  · next hf =>
    exact concatenate_pair_apply_left 2 x₁ x₂ h (ix3 p q f) rfl (ix3 p q ⟨f.val, hf⟩) (fun b => by
      match b with
      | ⟨0, _⟩ => rfl
      | ⟨1, _⟩ => rfl
      | ⟨2, _⟩ => rfl)
  · next hf =>
    exact concatenate_pair_apply_right 2 x₁ x₂ h (ix3 p q f) rfl rfl
      (ix3 p q ⟨f.val - c1, by have := f.isLt; omega⟩) (fun b hb => by
        match b, hb with
        | ⟨0, _⟩, _ => rfl
        | ⟨1, _⟩, _ => rfl
        | ⟨2, _⟩, hb => exact absurd rfl hb) (by show f.val - c1 + c1 = f.val; omega)

/-- A matrix `[a, b]` cast to `[a, b, 1]` reads, at `(p, q, u)`, the matrix at `(p, q)`: the same row-major position,
    the unit coordinate being `0`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- `[a, b, 1]` broadcast to `[a, b, c]` reads, at `(p, q, o)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (o : Fin c) :
    broadcastTo ⟨3, ![a, b, c]⟩ v h (ix3 p q o) = v (ix3 p q (0 : Fin 1)) := by
  refine broadcastTo_apply v h (ix3 p q o) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a, b, c]` with its two leading axes merged into `m = a * b` rows reads, at row `p * b + q`, the operand at `(p, q)`. -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (f : Fin c) (ρ : Fin m)
    (hρ : ρ.val = p.val * b + q.val) :
    shapeCast ⟨2, ![m, c]⟩ x h (ix2 ρ f) = x (ix3 p q f) :=
  shapeCast_apply x h _ _ (by
    rw [Shape.rowMajor_val_two, Shape.rowMajor_val_three]
    show (p.val * b + q.val) * c + f.val = ρ.val * c + f.val
    rw [hρ])

/-- `[m, c]` with its rows split into `[a, b]` reads, at `(p, q)`, the operand's row `p * b + q`. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (f : Fin c) (ρ : Fin m)
    (hρ : ρ.val = p.val * b + q.val) :
    shapeCast ⟨3, ![a, b, c]⟩ x h (ix3 p q f) = x (ix2 ρ f) :=
  shapeCast_apply x h _ _ (by
    rw [Shape.rowMajor_val_two, Shape.rowMajor_val_three]
    show ρ.val * c + f.val = (p.val * b + q.val) * c + f.val
    rw [hρ])

end Cert.LibLayout3

end
-- ==== Proof.RefG.lean ====
/-
  The reference, index by index: entry (b, o) of its result is the sum over the molecule's 256 atoms of the layer's
  term of atom (b, a) in channel o (Spec.term), read off the whole argument arrays.

  Its operations are read one at a time from the result backwards: the sum over the atom axis; the product with the
  broadcast mask; the clip at zero; the bias; the contraction of the 80-entry input row with the weight matrix; the
  input row as the atom's own features joined with the bond features summed over the slots; and the mask from the
  count of edge words that are not -1.
-/
import proofs.«113312_j32504312496731_1_alg».proof.Proof.RefRead
import proofs.«113312_j32504312496731_1_alg».proof.Proof.Spec
import proofs.«113312_j32504312496731_1_alg».proof.Proof.LibLayout3

noncomputable section

namespace Cert.ReferenceIdeal.RefValue

open Cert.ReferenceIdeal Cert.ReferenceIdeal.Gen Cert.ReferenceIdeal.ReadP Idealize.ShloMosaic Idealize.ShloMosaic.ValueIdx

/-- The joined input row of atom (b, a), entry f. -/
theorem row_apply (x0 : FVec Ideal S2048x256x64 .f32) (x1 : FVec Ideal S2048x256x8x16 .f32)
    (b : Fin 2048) (a : Fin 256) (f : Fin 80) :
    val_main_v9 (F := Ideal) x0 x1 (ix3 b a f) = Cert.Spec.feat (fun g => x0 (ix3 b a g)) (fun d g => x1 (ix4 b a d g)) f := by
  unfold val_main_v9 Cert.Spec.feat
  refine (Cert.LibLayout3.concat_last_apply x0 (val_main_v8 (F := Ideal) x1) concatenates_S2048x256x64_S2048x256x16_S2048x256x80_d2 rfl b a f).trans ?_
  by_cases hf : f.val < 64
  · rw [dif_pos hf, dif_pos hf]
  · rw [dif_neg hf, dif_neg hf, val_main_v8_apply, val_main_cst_1_apply]
    show Ideal.ofBits .f32 0x00000000#32 + _ = _
    rw [Ideal.ofBits_zero_f32, zero_add]
    refine Finset.sum_congr rfl fun d _ => congrArg x1 (funext fun ax => Fin.ext ?_)
    match ax with
    | ⟨0, _⟩ => rfl
    | ⟨1, _⟩ => rfl
    | ⟨2, _⟩ => rfl
    | ⟨3, _⟩ => rfl

/-- The mask of atom (b, a). -/
theorem mask_apply (x2 : IVec S2048x256x8 32) (b : Fin 2048) (a : Fin 256) (u : Fin 1) :
    val_main_v7 (F := Ideal) x2 (ix3 b a u) = Cert.Spec.msk (fun d => x2 (ix3 b a d)) := by
  rw [val_main_v7_apply, val_main_v6_apply, val_main_v4_apply, val_main_v3_apply, val_main_v5_apply, val_main_cst_0_apply,
    val_main_cst_apply]
  show (((Ideal.cmp .une (Ideal.ofBits .f32 0x00000000#32 + _) (Ideal.ofBits .f32 0x00000000#32)).toNat : ℝ) : EReal) = _
  rw [Ideal.ofBits_zero_f32, zero_add]
  unfold Cert.Spec.msk Cert.Spec.deg
  have e : ∀ x y : EReal, Ideal.cmp .une x y = Ideal.cmp .one x y := fun _ _ => rfl
  rw [e]
  refine congrArg (fun z : EReal => (((Ideal.cmp .one z 0).toNat : ℝ) : EReal)) ?_
  refine Finset.sum_congr rfl fun d _ => ?_
  rw [val_main_v2_apply, val_main_v1_apply, val_main_v0_apply, val_main_c_apply]
  have ei : idx_main_v3 (idx_main_v4 (ix3 b a u)) d = ix3 b a d := funext fun ax => Fin.ext (by
    match ax with
    | ⟨0, _⟩ => rfl
    | ⟨1, _⟩ => rfl
    | ⟨2, _⟩ => rfl)
  rw [ei]
  rfl

/-- The reference's result is the sum over the atoms of the layer's terms. -/
theorem ref_eq (x0 : FVec Ideal S2048x256x64 .f32) (x1 : FVec Ideal S2048x256x8x16 .f32) (x2 : IVec S2048x256x8 32)
    (x3 : FVec Ideal S80x256 .f32) (x4 : FVec Ideal S256 .f32) (b : Fin 2048) (o : Fin 256) :
    val_main_v17 (F := Ideal) x0 x1 x2 x3 x4 (ix2 b o) = Cert.Spec.G x0 x1 x2 x3 x4 b o := by
  rw [val_main_v17_apply, val_main_cst_2_apply]
  show Ideal.ofBits .f32 0x00000000#32 + _ = _
  rw [Ideal.ofBits_zero_f32, zero_add]
  unfold Cert.Spec.G
  refine Finset.sum_congr rfl fun a _ => ?_
  have e17 : idx_main_v17 (ix2 b o) a = ix3 b a o := funext fun ax => Fin.ext (by
    match ax with
    | ⟨0, _⟩ => rfl
    | ⟨1, _⟩ => rfl
    | ⟨2, _⟩ => rfl)
  rw [e17, val_main_v16_apply, val_main_v14_apply, val_main_v13_apply, val_main_v10_apply, val_main_v12_apply,
    val_main_v11_apply, val_main_v15_apply, val_main_call0_v0_apply, val_main_call0_cst_apply]
  have e15 : idx_main_v15 (ix3 b a o) = ix3 b a (0 : Fin 1) := funext fun ax => Fin.ext (by
    match ax with
    | ⟨0, _⟩ => rfl
    | ⟨1, _⟩ => rfl
    | ⟨2, _⟩ => rfl)
  have e11 : idx_main_v11 (idx_main_v12 (ix3 b a o)) = ix1 o := funext fun ax => Fin.ext (by
    match ax with
    | ⟨0, _⟩ => rfl)
  rw [e15, e11, mask_apply]
  unfold Cert.Spec.term
  show max (_ + x4 (ix1 o)) (Ideal.ofBits .f32 0x00000000#32) * _ = _
  rw [Ideal.ofBits_zero_f32]
  refine congrArg (fun z : EReal => max (z + x4 (ix1 o)) 0 * _) ?_
  refine Finset.sum_congr rfl fun f _ => ?_
  have el : lidx_main_v10 (ix3 b a o) f = ix3 b a f := funext fun ax => Fin.ext (by
    match ax with
    | ⟨0, _⟩ => rfl
    | ⟨1, _⟩ => rfl
    | ⟨2, _⟩ => rfl)
  have er : ridx_main_v10 (ix3 b a o) f = ix2 f o := funext fun ax => Fin.ext (by
    match ax with
    | ⟨0, _⟩ => rfl
    | ⟨1, _⟩ => rfl)
  rw [el, er, row_apply]

end Cert.ReferenceIdeal.RefValue

end
-- ==== Proof.Pieces.lean ====
/-
  What one grid point leaves behind, as values. The kernel walks a 16 x 4 grid: 16 tiles of 128 molecules, and for each
  of them 4 tiles of 64 atoms. It keeps a 128 x 256 accumulator across the four atom tiles of a molecule tile:
  the first resets it to zero and adds its own row sums, the next two add theirs, the last adds its own and copies the
  accumulator to the output block. Each case stores the accumulator whole, so what the point leaves is one function of
  the five input blocks and of what the point before left: the row sums of this tile (the third payload) added onto
  the accumulator's previous contents (the first payload), the previous contents being the zero block (the second
  payload) after a reset.
-/
import proofs.«113312_j32504312496731_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz1 : (![0] : Fin 1 → Nat) = fun _ => 0 := funext fun a => by fin_cases a <;> rfl

variable (c : Dev nD) (i : grid0.Coords) (arg2 : Memref sig .tc .vmem S128x64x64 .f32) (harg2 : arg2.IsWhole) (arg3 : Memref sig .tc .vmem S128x64x8x16 .f32) (harg3 : arg3.IsWhole) (arg4 : Memref sig .tc .vmem S128x64x8 .i32) (harg4 : arg4.IsWhole) (arg5 : Memref sig .tc .vmem S80x256 .f32) (harg5 : arg5.IsWhole) (arg6 : Memref sig .tc .vmem S256 .f32) (harg6 : arg6.IsWhole) (arg7 : Memref sig .tc .vmem S128x256 .f32) (harg7 : arg7.IsWhole) (arg8 : Memref sig .tc .vmem S128x256 .f32) (harg8 : arg8.IsWhole)
variable (x0 : Vec F S128x64x64 .f32) (x1 : Vec F S128x64x8x16 .f32) (x2 : Vec F S128x64x8 .i32) (x3 : Vec F S80x256 .f32) (x4 : Vec F S256 .f32) (xs0 : Vec F S128x256 .f32)

/-- A point that neither resets nor writes out leaves in the accumulator what it held plus this tile's row sums. -/
theorem sout_B (hc0 : ¬cond0_0 i) (hc1 : ¬cond0_1 i) :
    sout0_B_0 c i arg2 harg2 arg3 harg3 arg4 harg4 arg5 harg5 arg6 harg6 arg7 harg7 arg8 harg8 hc0 hc1 x0 x1 x2 x3 x4 xs0
      = k0_pay1 (k0_pay3 x0 x1 x2 x3 x4) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread,
    harg8.read_unread, View.ld_unit_zero (S := S128x64x64) hz3, View.ld_unit_zero (S := S128x64x8x16) hz4,
    View.ld_unit_zero (S := S128x64x8) hz3, View.ld_unit_zero (S := S80x256) hz2, View.ld_unit_zero (S := S256) hz1,
    View.ld_unit_zero (S := S128x256) hz2]

/-- The last point of a row of tiles leaves the same in the accumulator … -/
theorem sout_C (hc0 : ¬cond0_0 i) (hc1 : cond0_1 i) :
    sout0_C_0 c i arg2 harg2 arg3 harg3 arg4 harg4 arg5 harg5 arg6 harg6 arg7 harg7 arg8 harg8 hc0 hc1 x0 x1 x2 x3 x4 xs0
      = k0_pay1 (k0_pay3 x0 x1 x2 x3 x4) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread,
    harg8.read_unread, View.ld_unit_zero (S := S128x64x64) hz3, View.ld_unit_zero (S := S128x64x8x16) hz4,
    View.ld_unit_zero (S := S128x64x8) hz3, View.ld_unit_zero (S := S80x256) hz2, View.ld_unit_zero (S := S256) hz1,
    View.ld_unit_zero (S := S128x256) hz2]

/-- … and copies it to the output block. -/
theorem out_C (hc0 : ¬cond0_0 i) (hc1 : cond0_1 i) :
    out0_C_5 c i arg2 harg2 arg3 harg3 arg4 harg4 arg5 harg5 arg6 harg6 arg7 harg7 arg8 harg8 hc0 hc1 x0 x1 x2 x3 x4 xs0
      = k0_pay1 (k0_pay3 x0 x1 x2 x3 x4) xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread,
    harg8.read_unread, View.ld_unit_zero (S := S128x64x64) hz3, View.ld_unit_zero (S := S128x64x8x16) hz4,
    View.ld_unit_zero (S := S128x64x8) hz3, View.ld_unit_zero (S := S80x256) hz2, View.ld_unit_zero (S := S256) hz1,
    View.ld_unit_zero (S := S128x256) hz2, View.readCov_unit_zero (S := S128x256) _ hz2]

/-- The first point of a row of tiles resets the accumulator to zero, reads the zero back, and adds its tile's row sums. -/
theorem sout_A (hc0 : cond0_0 i) (hc1 : ¬cond0_1 i) :
    sout0_A_0 c i arg2 harg2 arg3 harg3 arg4 harg4 arg5 harg5 arg6 harg6 arg7 harg7 arg8 harg8 hc0 hc1 x0 x1 x2 x3 x4
      = k0_pay1 (k0_pay3 x0 x1 x2 x3 x4) (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S128x256) hz2, View.readCov_unit_zero (S := S128x256) _ hz2]
  simp only [View.readAt_eq_ld, harg2.read_unread, harg3.read_unread, harg4.read_unread, harg5.read_unread, harg6.read_unread,
    View.ld_unit_zero (S := S128x64x64) hz3, View.ld_unit_zero (S := S128x64x8x16) hz4,
    View.ld_unit_zero (S := S128x64x8) hz3, View.ld_unit_zero (S := S80x256) hz2, View.ld_unit_zero (S := S256) hz1,
    View.ld_unit_zero (S := S128x256) hz2]

end Cert.KernelIdeal.Pieces

end
-- ==== Proof.Payload.lean ====
/-
  The kernel body's three stored values, read at an index on the extended reals.

  The zero block is 0 everywhere. The accumulator update at (r, o) is the accumulator's previous entry plus the sum, over
  the 64 atoms of the tile, of the tile's masked rows in channel o. And the tile's masked row of atom (r, a) in
  channel o is the layer's term of that atom (Spec.term) read off the five input blocks: the block's rows are
  flattened to 8192 x 80 for the matrix product and split back, which moves nothing (row r * 64 + a is (r, a));
  the conversions to the narrow float format are the identity on the extended reals; the kernel's count of occupied
  slots goes through a one-bit compare widened to 32 bits and read signed, which is the bit itself.
-/
import proofs.«113312_j32504312496731_1_alg».proof.Proof.Gen.KernelIdeal.Skeleton
import proofs.«113312_j32504312496731_1_alg».proof.Proof.Spec
import proofs.«113312_j32504312496731_1_alg».proof.Proof.LibLayout3
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-! ## The matrix product at an index -/

theorem lhs_axis0 (i : S8192x256.Idx) (q : dot_S8192x80_S80x256_S8192x256_1_0_0_1_n_n.contr.Idx) :
    (dot_S8192x80_S80x256_S8192x256_1_0_0_1_n_n.lhsIdx i q 0).val = (i 0).val := by
  unfold DotDims.lhsIdx
  rw [dif_neg (show ¬(0 : Fin S8192x80.rank) ∈ dot_S8192x80_S80x256_S8192x256_1_0_0_1_n_n.lhsBatch by decide), dif_pos (show (0 : Fin S8192x80.rank) ∈ dot_S8192x80_S80x256_S8192x256_1_0_0_1_n_n.lhsNonContracting by decide)]
  rfl
theorem lhs_axis1 (i : S8192x256.Idx) (q : dot_S8192x80_S80x256_S8192x256_1_0_0_1_n_n.contr.Idx) :
    (dot_S8192x80_S80x256_S8192x256_1_0_0_1_n_n.lhsIdx i q 1).val = (q ⟨0, by decide⟩).val :=
  dot_S8192x80_S80x256_S8192x256_1_0_0_1_n_n.lhsIdx_val_of_single rfl i q
theorem rhs_axis0 (i : S8192x256.Idx) (q : dot_S8192x80_S80x256_S8192x256_1_0_0_1_n_n.contr.Idx) :
    (dot_S8192x80_S80x256_S8192x256_1_0_0_1_n_n.rhsIdx i q 0).val = (q ⟨0, by decide⟩).val :=
  dot_S8192x80_S80x256_S8192x256_1_0_0_1_n_n.rhsIdx_val_of_single rfl i q
theorem rhs_axis1 (i : S8192x256.Idx) (q : dot_S8192x80_S80x256_S8192x256_1_0_0_1_n_n.contr.Idx) :
    (dot_S8192x80_S80x256_S8192x256_1_0_0_1_n_n.rhsIdx i q 1).val = (i 1).val := by
  unfold DotDims.rhsIdx
  rw [dif_neg (show ¬(1 : Fin S80x256.rank) ∈ dot_S8192x80_S80x256_S8192x256_1_0_0_1_n_n.rhsBatch by decide), dif_pos (show (1 : Fin S80x256.rank) ∈ dot_S8192x80_S80x256_S8192x256_1_0_0_1_n_n.rhsNonContracting by decide)]
  rfl

/-- Row ρ of the left operand times column o of the right one, into a zero accumulator: the sum over the 80 features. -/
theorem matmul_at (l : FVec Ideal S8192x80 .bf16) (w : FVec Ideal S80x256 .bf16) (ρ : Fin 8192) (o : Fin 256) :
    matmul dot_S8192x80_S80x256_S8192x256_1_0_0_1_n_n none l w (constant S8192x256 .f32 0x00000000#32) (ix2 ρ o)
      = ∑ k : Fin 80, l (ix2 ρ k) * w (ix2 k o) := by
  simp only [matmul]
  rw [Ideal.matmul_constant_zero_apply, ← Equiv.sum_comp (contrEquiv1 dot_S8192x80_S80x256_S8192x256_1_0_0_1_n_n 80 rfl rfl).symm]
  refine Finset.sum_congr rfl fun k _ => ?_
  have hk := contrEquiv1_symm_val dot_S8192x80_S80x256_S8192x256_1_0_0_1_n_n 80 rfl rfl k
  have el : dot_S8192x80_S80x256_S8192x256_1_0_0_1_n_n.lhsIdx (ix2 ρ o) ((contrEquiv1 dot_S8192x80_S80x256_S8192x256_1_0_0_1_n_n 80 rfl rfl).symm k) = ix2 ρ k := funext fun a => Fin.ext (by
    match a with
    | ⟨0, _⟩ => exact lhs_axis0 _ _
    | ⟨1, _⟩ => exact (lhs_axis1 _ _).trans hk)
  have er : dot_S8192x80_S80x256_S8192x256_1_0_0_1_n_n.rhsIdx (ix2 ρ o) ((contrEquiv1 dot_S8192x80_S80x256_S8192x256_1_0_0_1_n_n 80 rfl rfl).symm k) = ix2 k o := funext fun a => Fin.ext (by
    match a with
    | ⟨0, _⟩ => exact (rhs_axis0 _ _).trans hk
    | ⟨1, _⟩ => exact rhs_axis1 _ _)
  rw [el, er]

/-! ## The sums over the eight neighbour slots -/

/-- Bond channel g of atom (r, a), summed over the slots. -/
theorem bondsum_apply (x1 : FVec Ideal S128x64x8x16 .f32) (r : Fin 128) (a : Fin 64) (g : Fin 16) :
    multiReduction .add [2] S128x64x16 x1 0x00000000#32 reduces_S128x64x8x16_S128x64x16 (.inl rfl) rfl (ix3 r a g)
      = ∑ d : Fin 8, x1 (ix4 r a d g) := by
  refine (Ideal.multiReduction_add_single x1 0x00000000#32 reduces_S128x64x8x16_S128x64x16 (.inl rfl) rfl (ix3 r a g)).trans ?_
  refine Finset.sum_congr rfl fun d _ => congrArg x1 (funext fun ax => Fin.ext ?_)
  match ax with
  | ⟨0, _⟩ => rfl
  | ⟨1, _⟩ => rfl
  | ⟨2, _⟩ => rfl
  | ⟨3, _⟩ => rfl

/-- The number of occupied slots of atom (r, a). -/
theorem degree_apply (x2 : IVec S128x64x8 32) (r : Fin 128) (a : Fin 64) :
    multiReduction (F := Ideal) .add [2] S128x64 (sitofp .f32 (extui 32 (cmpi .ne x2 (broadcast S128x64x8 4294967295#32)) natLt_1_32))
        0x00000000#32 reduces_S128x64x8_S128x64 (.inl rfl) rfl (ix2 r a)
      = Cert.Spec.deg (fun d => x2 (ix3 r a d)) := by
  refine (Ideal.multiReduction_add_single _ 0x00000000#32 reduces_S128x64x8_S128x64 (.inl rfl) rfl (ix2 r a)).trans ?_
  unfold Cert.Spec.deg
  refine Finset.sum_congr rfl fun d _ => ?_
  have e : reduces_S128x64x8_S128x64.lift (ix2 r a) d = ix3 r a d := funext fun ax => Fin.ext (by
    match ax with
    | ⟨0, _⟩ => rfl
    | ⟨1, _⟩ => rfl
    | ⟨2, _⟩ => rfl)
  rw [e]
  exact Cert.Spec.bit_signed_eq_unsigned _

/-! ## The input row, the mask and the bias at an index -/

/-- Entry f of row ρ = r * 64 + a of the flattened, joined block: the atom's own feature, or the summed bond channel. -/
theorem row_apply (x0 : FVec Ideal S128x64x64 .f32) (b16 : FVec Ideal S128x64x16 .f32) (r : Fin 128) (a : Fin 64)
    (ρ : Fin 8192) (hρ : ρ.val = r.val * 64 + a.val) (f : Fin 80) :
    truncf (F := Ideal) .bf16 (shapeCast S8192x80 (concatenate S128x64x80 2 [⟨S128x64x64, x0⟩, ⟨S128x64x16, b16⟩]
        concatenates_S128x64x64_S128x64x16_S128x64x80_d2) shapeCasts_S128x64x80_S8192x80) bitsLt_bf16_f32 (ix2 ρ f)
      = if h : f.val < 64 then x0 (ix3 r a ⟨f.val, h⟩) else b16 (ix3 r a ⟨f.val - 64, by have := f.isLt; omega⟩) := by
  refine (truncf_apply (ψ := .bf16) _ bitsLt_bf16_f32 (ix2 ρ f)).trans ?_
  refine (Cert.LibLayout3.shapeCast_abc_mc_apply _ shapeCasts_S128x64x80_S8192x80 r a f ρ hρ).trans ?_
  exact Cert.LibLayout3.concat_last_apply x0 b16 concatenates_S128x64x64_S128x64x16_S128x64x80_d2 rfl r a f

/-- The mask of atom (r, a), broadcast over the channels, from its degree. -/
theorem mask_of_degree (dg : FVec Ideal S128x64 .f32) (r : Fin 128) (a : Fin 64) (o : Fin 256) :
    broadcastTo S128x64x256 (sitofp (F := Ideal) .f32 (extui 32 (cmpf .one (shapeCast S128x64x1 dg shapeCasts_S128x64_S128x64x1)
        (broadcast S128x64x1 (FloatOps.ofBits .f32 0x00000000#32))) natLt_1_32)) broadcasts_S128x64x1_S128x64x256 (ix3 r a o)
      = (((Ideal.cmp .one (dg (ix2 r a)) 0).toNat : ℝ) : EReal) := by
  refine (Cert.LibLayout3.broadcastTo_ab1_abc_apply _ broadcasts_S128x64x1_S128x64x256 r a o).trans ?_
  show ((((Ideal.cmp .one (shapeCast S128x64x1 dg shapeCasts_S128x64_S128x64x1 (ix3 r a (0 : Fin 1))) (Ideal.ofBits .f32 0x00000000#32)).setWidth 32).toInt : ℝ) : EReal) = _
  rw [Cert.LibLayout3.shapeCast_ab_ab1_apply dg shapeCasts_S128x64_S128x64x1 r a 0, Ideal.ofBits_zero_f32]
  exact Cert.Spec.bit_signed_eq_unsigned _

/-- The bias, broadcast over the rows. -/
theorem bias_apply (x4 : FVec Ideal S256 .f32) (ρ : Fin 8192) (o : Fin 256) :
    broadcastTo S8192x256 (shapeCast S1x256 x4 shapeCasts_S256_S1x256) broadcasts_S1x256_S8192x256 (ix2 ρ o) = x4 (ix1 o) := by
  refine (broadcastTo_1b_ab_apply _ broadcasts_S1x256_S8192x256 ρ o).trans ?_
  exact shapeCast_a_1a_apply x4 shapeCasts_S256_S1x256 0 o

/-! ## The three payloads -/

/-- The reset stores zeros. -/
theorem pay2_apply (y : S128x256.Idx) : (k0_pay2 (F := Ideal)) y = 0 := by
  unfold k0_pay2
  rw [shapeCast_self]
  exact Ideal.ofBits_zero_f32

/-- The update adds, to the accumulator's entry (r, o), the tile's masked rows in channel o summed over its 64 atoms. -/
theorem pay1_apply (v31 : FVec Ideal S128x64x256 .f32) (v32 : Vec Ideal S128x256 .f32) (r : Fin 128) (o : Fin 256) :
    k0_pay1 v31 v32 (ix2 r o) = v32 (ix2 r o) + ∑ a : Fin 64, v31 (ix3 r a o) := by
  unfold k0_pay1
  dsimp only
  rw [shapeCast_self]
  refine (addf_apply _ _ _).trans ?_
  refine congrArg (v32 (ix2 r o) + ·) ?_
  refine (Ideal.multiReduction_add_single v31 0x00000000#32 reduces_S128x64x256_S128x256 (.inl rfl) rfl (ix2 r o)).trans ?_
  refine Finset.sum_congr rfl fun a _ => congrArg v31 (funext fun ax => Fin.ext ?_)
  match ax with
  | ⟨0, _⟩ => rfl
  | ⟨1, _⟩ => rfl
  | ⟨2, _⟩ => rfl

/-- The tile's masked row of atom (r, a) in channel o is the layer's term of that atom, read off the blocks. -/
theorem pay3_apply (x0 : Vec Ideal S128x64x64 .f32) (x1 : Vec Ideal S128x64x8x16 .f32) (x2 : Vec Ideal S128x64x8 .i32)
    (x3 : Vec Ideal S80x256 .f32) (x4 : Vec Ideal S256 .f32) (r : Fin 128) (a : Fin 64) (o : Fin 256) :
    k0_pay3 (F := Ideal) x0 x1 x2 x3 x4 (ix3 r a o)
      = Cert.Spec.term (fun f => x0 (ix3 r a f)) (fun d g => x1 (ix4 r a d g)) (fun d => x2 (ix3 r a d))
          (fun f o' => x3 (ix2 f o')) (fun o' => x4 (ix1 o')) o := by
  unfold k0_pay3
  refine (mulf_apply _ _ _).trans ?_
  unfold Cert.Spec.term
  refine congrArg₂ (· * ·) ?_ ?_
  · refine (Cert.LibLayout3.shapeCast_mc_abc_apply _ shapeCasts_S8192x256_S128x64x256 r a o
      ⟨r.val * 64 + a.val, by have := r.isLt; have := a.isLt; omega⟩ rfl).trans ?_
    refine (maximumf_apply _ _ _).trans ?_
    refine congrArg₂ max ?_ ?_
    · refine (addf_apply _ _ _).trans ?_
      refine congrArg₂ (· + ·) ?_ ?_
      · refine (matmul_at _ _ _ o).trans ?_
        refine Finset.sum_congr rfl fun f _ => ?_
        refine congrArg₂ (· * ·) ?_ ?_
        · refine (row_apply x0 _ r a _ rfl f).trans ?_
          unfold Cert.Spec.feat
          by_cases hf : f.val < 64
          · rw [dif_pos hf, dif_pos hf]
          · rw [dif_neg hf, dif_neg hf]
            exact bondsum_apply x1 r a _
        · exact truncf_apply (ψ := .bf16) x3 bitsLt_bf16_f32 (ix2 f o)
      · exact bias_apply x4 _ o
    · exact Ideal.ofBits_zero_f32
  · refine (mask_of_degree _ r a o).trans ?_
    unfold Cert.Spec.msk
    rw [degree_apply]

end Cert.KernelIdeal.Payload

end
-- ==== Proof.KernelValue.lean ====
/-
  The kernel's result array, at the ideal values: entry (b, o) is the sum over molecule b's 256 atoms of the layer's
  term of the atom in channel o — the same function of the argument arrays as the reference's.

  Point t = 4 i + j of the grid works on molecules 128 i … 128 i + 127 and atoms 64 j … 64 j + 63: its input blocks are
  those rows of the arrays. The accumulator after point t holds, for each molecule of the tile, the terms of the atoms
  of tiles 0 … j added one tile after the other onto zero. After j = 3 that is the sum over all 256 atoms, and it is
  what the point copies to the output block, which the pipeline then writes to rows 128 i … of the result. The 16 output
  blocks tile the result.
-/
import proofs.«113312_j32504312496731_1_alg».proof.Proof.Gen.KernelIdeal.Value
import proofs.«113312_j32504312496731_1_alg».proof.Proof.Pieces
import proofs.«113312_j32504312496731_1_alg».proof.Proof.Payload
import proofs.«113312_j32504312496731_1_alg».proof.Proof.Spec
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays and the blocks, by their literal types -/

abbrev arr0 (c : Dev nD) : Vec Ideal S2048x256x64 .f32 := m ((c : Thread nD τ).loc main_arg0)
abbrev arr1 (c : Dev nD) : Vec Ideal S2048x256x8x16 .f32 := m ((c : Thread nD τ).loc main_arg1)
abbrev arr2 (c : Dev nD) : Vec Ideal S2048x256x8 .i32 := m ((c : Thread nD τ).loc main_arg2)
abbrev arr3 (c : Dev nD) : Vec Ideal S80x256 .f32 := m ((c : Thread nD τ).loc main_arg3)
abbrev arr4 (c : Dev nD) : Vec Ideal S256 .f32 := m ((c : Thread nD τ).loc main_arg4)

abbrev xb0 (c : Dev nD) (t : Fin cfg0.N) : Vec Ideal S128x64x64 .f32 := iblk m c 0 t
abbrev xb1 (c : Dev nD) (t : Fin cfg0.N) : Vec Ideal S128x64x8x16 .f32 := iblk m c 1 t
abbrev xb2 (c : Dev nD) (t : Fin cfg0.N) : Vec Ideal S128x64x8 .i32 := iblk m c 2 t
abbrev xb3 (c : Dev nD) (t : Fin cfg0.N) : Vec Ideal S80x256 .f32 := iblk m c 3 t
abbrev xb4 (c : Dev nD) (t : Fin cfg0.N) : Vec Ideal S256 .f32 := iblk m c 4 t

/-- The layer's term of atom (b, a) in channel o, read off the arrays. -/
def T (c : Dev nD) (b : Fin 2048) (a : Fin 256) (o : Fin 256) : EReal :=
  Cert.Spec.term (fun f => arr0 m c (ix3 b a f)) (fun d g => arr1 m c (ix4 b a d g)) (fun d => arr2 m c (ix3 b a d))
    (fun f o' => arr3 m c (ix2 f o')) (fun o' => arr4 m c (ix1 o')) o

/-! ## Where point t's blocks lie -/

/-- The index maps, decided over the grid: point t is molecule tile t / 4 and atom tile t % 4; the weights and the
    bias are one block each; the output block follows the molecule tile. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 4) = t.val / 4 ∧ win0_1.index t (1 : Fin 4) = t.val % 4 ∧ win0_1.index t (2 : Fin 4) = 0 ∧ win0_1.index t (3 : Fin 4) = 0
    ∧ win0_2.index t (0 : Fin 3) = t.val / 4 ∧ win0_2.index t (1 : Fin 3) = t.val % 4 ∧ win0_2.index t (2 : Fin 3) = 0
    ∧ win0_3.index t (0 : Fin 2) = 0 ∧ win0_3.index t (1 : Fin 2) = 0
    ∧ win0_4.index t (0 : Fin 1) = 0
    ∧ win0_5.index t (0 : Fin 2) = t.val / 4 ∧ win0_5.index t (1 : Fin 2) = 0 :=
  (by decide +kernel : ∀ t : Fin grid0.N, _)

theorem xb0_apply (c : Dev nD) (t : Fin cfg0.N) (r : Fin 128) (a : Fin 64) (f : Fin 64) (b : Fin 2048) (q : Fin 256)
    (hb : b.val = 128 * (t.val / 4) + r.val) (hq : q.val = a.val + 64 * (t.val % 4)) :
    xb0 m c t (ix3 r a f) = arr0 m c (ix3 b q f) := by
  obtain ⟨e0, e1, e2, -⟩ := idx_facts t
  show V m c main_arg0 (((cfg0.win 0).blk t).view.emb (ix3 r a f)) = V m c main_arg0 (ix3 b q f)
  refine congrArg (V m c main_arg0) (funext fun ax => Fin.ext ?_)
  match ax with
  | ⟨0, _⟩ => show win0_0.index t (0 : Fin 3) * 128 + 1 * r.val = b.val; rw [e0, hb]; omega
  | ⟨1, _⟩ => show win0_0.index t (1 : Fin 3) * 64 + 1 * a.val = q.val; rw [e1, hq]; omega
  | ⟨2, _⟩ => show win0_0.index t (2 : Fin 3) * 64 + 1 * f.val = f.val; rw [e2]; omega

theorem xb1_apply (c : Dev nD) (t : Fin cfg0.N) (r : Fin 128) (a : Fin 64) (d : Fin 8) (g : Fin 16) (b : Fin 2048) (q : Fin 256)
    (hb : b.val = 128 * (t.val / 4) + r.val) (hq : q.val = a.val + 64 * (t.val % 4)) :
    xb1 m c t (ix4 r a d g) = arr1 m c (ix4 b q d g) := by
  obtain ⟨-, -, -, e0, e1, e2, e3, -⟩ := idx_facts t
  show V m c main_arg1 (((cfg0.win 1).blk t).view.emb (ix4 r a d g)) = V m c main_arg1 (ix4 b q d g)
  refine congrArg (V m c main_arg1) (funext fun ax => Fin.ext ?_)
  match ax with
  | ⟨0, _⟩ => show win0_1.index t (0 : Fin 4) * 128 + 1 * r.val = b.val; rw [e0, hb]; omega
  | ⟨1, _⟩ => show win0_1.index t (1 : Fin 4) * 64 + 1 * a.val = q.val; rw [e1, hq]; omega
  | ⟨2, _⟩ => show win0_1.index t (2 : Fin 4) * 8 + 1 * d.val = d.val; rw [e2]; omega
  | ⟨3, _⟩ => show win0_1.index t (3 : Fin 4) * 16 + 1 * g.val = g.val; rw [e3]; omega

theorem xb2_apply (c : Dev nD) (t : Fin cfg0.N) (r : Fin 128) (a : Fin 64) (d : Fin 8) (b : Fin 2048) (q : Fin 256)
    (hb : b.val = 128 * (t.val / 4) + r.val) (hq : q.val = a.val + 64 * (t.val % 4)) :
    xb2 m c t (ix3 r a d) = arr2 m c (ix3 b q d) := by
  obtain ⟨-, -, -, -, -, -, -, e0, e1, e2, -⟩ := idx_facts t
  show V m c main_arg2 (((cfg0.win 2).blk t).view.emb (ix3 r a d)) = V m c main_arg2 (ix3 b q d)
  refine congrArg (V m c main_arg2) (funext fun ax => Fin.ext ?_)
  match ax with
  | ⟨0, _⟩ => show win0_2.index t (0 : Fin 3) * 128 + 1 * r.val = b.val; rw [e0, hb]; omega
  | ⟨1, _⟩ => show win0_2.index t (1 : Fin 3) * 64 + 1 * a.val = q.val; rw [e1, hq]; omega
  | ⟨2, _⟩ => show win0_2.index t (2 : Fin 3) * 8 + 1 * d.val = d.val; rw [e2]; omega

theorem xb3_apply (c : Dev nD) (t : Fin cfg0.N) (f : Fin 80) (o : Fin 256) :
    xb3 m c t (ix2 f o) = arr3 m c (ix2 f o) := by
  obtain ⟨-, -, -, -, -, -, -, -, -, -, e0, e1, -⟩ := idx_facts t
  show V m c main_arg3 (((cfg0.win 3).blk t).view.emb (ix2 f o)) = V m c main_arg3 (ix2 f o)
  refine congrArg (V m c main_arg3) (funext fun ax => Fin.ext ?_)
  match ax with
  | ⟨0, _⟩ => show win0_3.index t (0 : Fin 2) * 80 + 1 * f.val = f.val; rw [e0]; omega
  | ⟨1, _⟩ => show win0_3.index t (1 : Fin 2) * 256 + 1 * o.val = o.val; rw [e1]; omega

theorem xb4_apply (c : Dev nD) (t : Fin cfg0.N) (o : Fin 256) :
    xb4 m c t (ix1 o) = arr4 m c (ix1 o) := by
  obtain ⟨-, -, -, -, -, -, -, -, -, -, -, -, e0, -⟩ := idx_facts t
  show V m c main_arg4 (((cfg0.win 4).blk t).view.emb (ix1 o)) = V m c main_arg4 (ix1 o)
  refine congrArg (V m c main_arg4) (funext fun ax => Fin.ext ?_)
  match ax with
  | ⟨0, _⟩ => show win0_4.index t (0 : Fin 1) * 256 + 1 * o.val = o.val; rw [e0]; omega

/-! ## One point's update -/

/-- The tile's masked row of its atom (r, a) at point t is the layer's term of atom (b, q) of the arrays, where b and q
    are the molecule and the atom the block's row (r, a) is. -/
theorem tile_term (c : Dev nD) (t : Fin cfg0.N) (r : Fin 128) (a : Fin 64) (o : Fin 256) (b : Fin 2048) (q : Fin 256)
    (hb : b.val = 128 * (t.val / 4) + r.val) (hq : q.val = a.val + 64 * (t.val % 4)) :
    k0_pay3 (F := Ideal) (xb0 m c t) (xb1 m c t) (xb2 m c t) (xb3 m c t) (xb4 m c t) (ix3 r a o) = T m c b q o := by
  refine (Cert.KernelIdeal.Payload.pay3_apply (xb0 m c t) (xb1 m c t) (xb2 m c t) (xb3 m c t) (xb4 m c t) r a o).trans ?_
  unfold T
  have e0 : (fun f => xb0 m c t (ix3 r a f)) = fun f => arr0 m c (ix3 b q f) := funext fun f => xb0_apply m c t r a f b q hb hq
  have e1 : (fun d g => xb1 m c t (ix4 r a d g)) = fun d g => arr1 m c (ix4 b q d g) :=
    funext fun d => funext fun g => xb1_apply m c t r a d g b q hb hq
  have e2 : (fun d => xb2 m c t (ix3 r a d)) = fun d => arr2 m c (ix3 b q d) := funext fun d => xb2_apply m c t r a d b q hb hq
  have e3 : (fun f o' => xb3 m c t (ix2 f o')) = fun f o' => arr3 m c (ix2 f o') := funext fun f => funext fun o' => xb3_apply m c t f o'
  have e4 : (fun o' => xb4 m c t (ix1 o')) = fun o' => arr4 m c (ix1 o') := funext fun o' => xb4_apply m c t o'
  rw [e0, e1, e2, e3, e4]

/-- Point t adds, to the accumulator's entry (r, o), atom tile t % 4 of molecule b = 128 (t / 4) + r in channel o. -/
theorem step (c : Dev nD) (t : Fin cfg0.N) (acc : Vec Ideal S128x256 .f32) (r : Fin 128) (o : Fin 256) (b : Fin 2048) (j : Fin 4)
    (hb : b.val = 128 * (t.val / 4) + r.val) (hj : j.val = t.val % 4) :
    k0_pay1 (k0_pay3 (F := Ideal) (xb0 m c t) (xb1 m c t) (xb2 m c t) (xb3 m c t) (xb4 m c t)) acc (ix2 r o)
      = acc (ix2 r o) + Cert.Spec.tile (fun a => T m c b a o) j := by
  refine (Cert.KernelIdeal.Payload.pay1_apply (k0_pay3 (F := Ideal) (xb0 m c t) (xb1 m c t) (xb2 m c t) (xb3 m c t) (xb4 m c t)) acc r o).trans ?_
  refine congrArg (acc (ix2 r o) + ·) ?_
  unfold Cert.Spec.tile
  refine Finset.sum_congr rfl fun a _ => ?_
  exact tile_term m c t r a o b _ hb (by show a.val + 64 * j.val = _; rw [hj])

/-! ## The accumulator after each point, and the output block -/

theorem acc_A (c : Dev nD) (n : ℕ) (hn : n < cfg0.N) (h0 : n % 4 = 0) (h1 : ¬n % 4 = 3) :
    (outsAt0 m c n hn).2 = k0_pay1 (k0_pay3 (F := Ideal) (xb0 m c ⟨n, hn⟩) (xb1 m c ⟨n, hn⟩) (xb2 m c ⟨n, hn⟩) (xb3 m c ⟨n, hn⟩) (xb4 m c ⟨n, hn⟩)) (k0_pay2 (F := Ideal)) := by
  rw [outsAt0_A m c ⟨n, hn⟩ h0 h1]
  dsimp only
  exact Cert.KernelIdeal.Pieces.sout_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (iblk m c 0 ⟨n, hn⟩) (iblk m c 1 ⟨n, hn⟩) (iblk m c 2 ⟨n, hn⟩) (iblk m c 3 ⟨n, hn⟩) (iblk m c 4 ⟨n, hn⟩)
    ((hcond0_0 ⟨n, hn⟩).mpr h0) (fun h => h1 ((hcond0_1 ⟨n, hn⟩).mp h))

theorem acc_B (c : Dev nD) (n : ℕ) (hn : n < cfg0.N) (h0 : ¬n % 4 = 0) (h1 : ¬n % 4 = 3) :
    (outsAt0 m c n hn).2 = k0_pay1 (k0_pay3 (F := Ideal) (xb0 m c ⟨n, hn⟩) (xb1 m c ⟨n, hn⟩) (xb2 m c ⟨n, hn⟩) (xb3 m c ⟨n, hn⟩) (xb4 m c ⟨n, hn⟩))
      (outsAt0 m c (n - 1) (Nat.lt_of_le_of_lt (Nat.sub_le _ _) hn)).2 := by
  rw [outsAt0_B m c ⟨n, hn⟩ h0 h1]
  dsimp only
  exact Cert.KernelIdeal.Pieces.sout_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (iblk m c 0 ⟨n, hn⟩) (iblk m c 1 ⟨n, hn⟩) (iblk m c 2 ⟨n, hn⟩) (iblk m c 3 ⟨n, hn⟩) (iblk m c 4 ⟨n, hn⟩)
    (outsAt0 m c (n - 1) (Nat.lt_of_le_of_lt (Nat.sub_le _ _) hn)).2
    (fun h => h0 ((hcond0_0 ⟨n, hn⟩).mp h)) (fun h => h1 ((hcond0_1 ⟨n, hn⟩).mp h))

theorem out_C (c : Dev nD) (n : ℕ) (hn : n < cfg0.N) (h0 : ¬n % 4 = 0) (h1 : n % 4 = 3) :
    (outsAt0 m c n hn).1 = k0_pay1 (k0_pay3 (F := Ideal) (xb0 m c ⟨n, hn⟩) (xb1 m c ⟨n, hn⟩) (xb2 m c ⟨n, hn⟩) (xb3 m c ⟨n, hn⟩) (xb4 m c ⟨n, hn⟩))
      (outsAt0 m c (n - 1) (Nat.lt_of_le_of_lt (Nat.sub_le _ _) hn)).2 := by
  rw [outsAt0_C m c ⟨n, hn⟩ h0 h1]
  dsimp only
  exact Cert.KernelIdeal.Pieces.out_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (iblk m c 0 ⟨n, hn⟩) (iblk m c 1 ⟨n, hn⟩) (iblk m c 2 ⟨n, hn⟩) (iblk m c 3 ⟨n, hn⟩) (iblk m c 4 ⟨n, hn⟩)
    (outsAt0 m c (n - 1) (Nat.lt_of_le_of_lt (Nat.sub_le _ _) hn)).2
    (fun h => h0 ((hcond0_0 ⟨n, hn⟩).mp h)) ((hcond0_1 ⟨n, hn⟩).mpr h1)

/-- After the last atom tile of a molecule tile the output block's entry (r, o) is the sum over all 256 atoms of
    molecule b = 128 (n / 4) + r: the four tiles were added one after the other onto the zero of the reset. -/
theorem out_row (c : Dev nD) (n : ℕ) (hn : n < cfg0.N) (h3 : n % 4 = 3) (r : Fin 128) (o : Fin 256) (b : Fin 2048)
    (hb : b.val = 128 * (n / 4) + r.val) :
    (outsAt0 m c n hn).1 (ix2 r o) = Cert.Spec.G (arr0 m c) (arr1 m c) (arr2 m c) (arr3 m c) (arr4 m c) b o := by
  have hN : cfg0.N = 64 := N_0
  have hn1 : n - 1 < cfg0.N := by omega
  have hn2 : n - 1 - 1 < cfg0.N := by omega
  have hn3 : n - 1 - 1 - 1 < cfg0.N := by omega
  rw [out_C m c n hn (by omega) h3,
    step m c ⟨n, hn⟩ _ r o b 3 hb (by show 3 = n % 4; omega),
    acc_B m c (n - 1) hn1 (by omega) (by omega),
    step m c ⟨n - 1, hn1⟩ _ r o b 2 (by show b.val = 128 * ((n - 1) / 4) + r.val; omega) (by show 2 = (n - 1) % 4; omega),
    acc_B m c (n - 1 - 1) hn2 (by omega) (by omega),
    step m c ⟨n - 1 - 1, hn2⟩ _ r o b 1 (by show b.val = 128 * ((n - 1 - 1) / 4) + r.val; omega) (by show 1 = (n - 1 - 1) % 4; omega),
    acc_A m c (n - 1 - 1 - 1) hn3 (by omega) (by omega),
    step m c ⟨n - 1 - 1 - 1, hn3⟩ _ r o b 0 (by show b.val = 128 * ((n - 1 - 1 - 1) / 4) + r.val; omega) (by show 0 = (n - 1 - 1 - 1) % 4; omega),
    Cert.KernelIdeal.Payload.pay2_apply]
  exact Cert.Spec.acc_tiles (fun a => T m c b a o)

/-! ## The result array -/

/-- The result, as contents of the result array. -/
abbrev result (c : Dev nD) : Buf (Elt Ideal) ((c : Thread nD τ).loc main_v0) :=
  fun (i : S2048x256.Idx) => Cert.Spec.G (arr0 m c) (arr1 m c) (arr2 m c) (arr3 m c) (arr4 m c) (i 0) (i 1)

/-- What a point that writes its output block back writes is that block of the result. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  have hN : cfg0.N = 64 := N_0
  have ht : t.val < 64 := lt_of_lt_of_eq t.isLt hN
  obtain ⟨-, -, -, -, -, -, -, -, -, -, -, -, -, e0, e1⟩ := idx_facts t
  rw [Cert.KernelIdeal.Value.flushed5]
  funext y
  have hy0 : (y 0).val < 128 := (y 0).isLt
  have hy1 : (y 1).val < 256 := (y 1).isLt
  show (outsAt0 m c t.val t.isLt).1 ((cfg0.win 5).xinj (grid0.coords t) y) = result m c (((cfg0.win 5).blk t).view.emb y)
  have ey : (cfg0.win 5).xinj (grid0.coords t) y = ix2 (⟨(y 0).val, hy0⟩ : Fin 128) (⟨(y 1).val, hy1⟩ : Fin 256) :=
    funext fun ax => Fin.ext (by
      match ax with
      | ⟨0, _⟩ => rfl
      | ⟨1, _⟩ => rfl)
  rw [ey]
  show _ = Cert.Spec.G (arr0 m c) (arr1 m c) (arr2 m c) (arr3 m c) (arr4 m c)
        ((((cfg0.win 5).blk t).view.emb y) 0) ((((cfg0.win 5).blk t).view.emb y) 1)
  rw [out_row m c t.val t.isLt h3 ⟨(y 0).val, hy0⟩ ⟨(y 1).val, hy1⟩ ⟨128 * (t.val / 4) + (y 0).val, by omega⟩ rfl]
  have eb : (⟨128 * (t.val / 4) + (y 0).val, by omega⟩ : Fin 2048) = (((cfg0.win 5).blk t).view.emb y) 0 := Fin.ext (by
    show 128 * (t.val / 4) + (y 0).val = win0_5.index t (0 : Fin 2) * 128 + 1 * (y 0).val
    rw [e0]; omega)
  have eo : (⟨(y 1).val, hy1⟩ : Fin 256) = (((cfg0.win 5).blk t).view.emb y) 1 := Fin.ext (by
    show (y 1).val = win0_5.index t (1 : Fin 2) * 256 + 1 * (y 1).val
    rw [e1]; omega)
  rw [eb, eo]

/-- An index of the result is in point t's output block iff each coordinate is in the block's range on its axis. -/
theorem mem_blk (t : Fin cfg0.N) (i : S2048x256.Idx) :
    i ∈ ((cfg0.win 5).blk t).view.set ↔ ∀ a : Fin 2, win0_5.index t a * S128x256.size a ≤ (i a).val ∧ (i a).val < win0_5.index t a * S128x256.size a + S128x256.size a := by
  show i ∈ ((View.whole main_v0).slice (win0_5.rect t)).set ↔ _
  rw [View.set_slice_whole, Rect.mem_set_unit]
  exact Iff.rfl

/-- Every row of the result lies in the output block of the last point of its molecule tile. -/
theorem cover (i : S2048x256.Idx) : ∃ t : Fin cfg0.N, (cfg0.win 5).flush t = true ∧ i ∈ ((cfg0.win 5).blk t).view.set := by
  have hN : cfg0.N = 64 := N_0
  have hi0 : (i 0).val < 2048 := (i 0).isLt
  have hi1 : (i 1).val < 256 := (i 1).isLt
  have hlt : 4 * ((i 0).val / 128) + 3 < cfg0.N := by rw [hN]; omega
  refine ⟨⟨4 * ((i 0).val / 128) + 3, hlt⟩, (flush0_5 _).mpr (by show (4 * ((i 0).val / 128) + 3) % 4 = 3; omega), ?_⟩
  rw [mem_blk]
  obtain ⟨-, -, -, -, -, -, -, -, -, -, -, -, -, e0, e1⟩ := idx_facts ⟨4 * ((i 0).val / 128) + 3, hlt⟩
  intro a
  match a with
  | ⟨0, _⟩ =>
    show win0_5.index ⟨4 * ((i 0).val / 128) + 3, hlt⟩ (0 : Fin 2) * 128 ≤ (i 0).val ∧ (i 0).val < win0_5.index ⟨4 * ((i 0).val / 128) + 3, hlt⟩ (0 : Fin 2) * 128 + 128
    rw [e0]
    show (4 * ((i 0).val / 128) + 3) / 4 * 128 ≤ (i 0).val ∧ (i 0).val < (4 * ((i 0).val / 128) + 3) / 4 * 128 + 128
    omega
  | ⟨1, _⟩ =>
    show win0_5.index ⟨4 * ((i 0).val / 128) + 3, hlt⟩ (1 : Fin 2) * 256 ≤ (i 1).val ∧ (i 1).val < win0_5.index ⟨4 * ((i 0).val / 128) + 3, hlt⟩ (1 : Fin 2) * 256 + 256
    rw [e1]
    omega

/-- So the result array ends holding the sums over the atoms. -/
theorem final (c : Dev nD) : (dats m 0 c).arrAt 5 cfg0.N = result m c :=
  (dats m 0 c).arrAt_eq_of_cover 5 (result m c) (flushed_eq m c) cover

/-- The run, read: the result array at the sums over the atoms, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.KValue

end
-- ==== Proof.lean ====
/-
  A graph layer's pooled readout: for each molecule b and output channel o,
      out[b, o] = ∑ over the 256 atoms a of  relu (row(b, a) · W[:, o] + bias[o]) · mask(b, a),
  where row(b, a) is the atom's 64 features followed by its 16 bond channels summed over 8 neighbour slots, and mask(b, a)
  is 1 when some slot's edge word is not -1 and 0 otherwise.

  The kernel computes it tile by tile: 16 tiles of 128 molecules, and for each of them 4 tiles of 64 atoms whose masked
  rows are summed and added, one tile after the other, onto an accumulator reset to zero at the first; after the fourth
  the accumulator is written out. The reference sums over all 256 atoms at once. On the extended reals the two agree
  because addition is associative and commutative there: the sum over 256 atoms is the sum of its four consecutive
  tiles of 64, and adding them onto zero changes nothing. No other law is used, so finiteness of the inputs is not
  needed for the value. The kernel's conversions to a narrower float format are the identity on the extended reals, its
  matrix product into a zero accumulator is the reference's contraction, and its mask (a one-bit compare widened to 32
  bits and converted as a signed integer) is the reference's (the bit converted as an unsigned one).

  The idealization rewrote nothing, so that claim is trivially true. The kernel's two frames are the generated ones; the
  reference's frame is its run with the result dropped.
-/
import proofs.«113312_j32504312496731_1_alg».proof.Defs
import proofs.«113312_j32504312496731_1_alg».proof.Proof.Gen.Kernel
import proofs.«113312_j32504312496731_1_alg».proof.Proof.Gen.Kernel.Skeleton
import proofs.«113312_j32504312496731_1_alg».proof.Proof.Gen.Kernel.Launch
import proofs.«113312_j32504312496731_1_alg».proof.Proof.Gen.Kernel.Points
import proofs.«113312_j32504312496731_1_alg».proof.Proof.Gen.Kernel.Frame
import proofs.«113312_j32504312496731_1_alg».proof.Proof.Gen.KernelIdeal
import proofs.«113312_j32504312496731_1_alg».proof.Proof.Gen.KernelIdeal.Skeleton
import proofs.«113312_j32504312496731_1_alg».proof.Proof.Gen.KernelIdeal.Launch
import proofs.«113312_j32504312496731_1_alg».proof.Proof.Gen.KernelIdeal.Points
import proofs.«113312_j32504312496731_1_alg».proof.Proof.Gen.KernelIdeal.Frame
import proofs.«113312_j32504312496731_1_alg».proof.Proof.Gen.ReferenceIdeal
import proofs.«113312_j32504312496731_1_alg».proof.Proof.Gen.Pre_finite_inputs
import proofs.«113312_j32504312496731_1_alg».proof.Proof.Gen.KernelIdeal.Value
import proofs.«113312_j32504312496731_1_alg».proof.Proof.RefRun
import proofs.«113312_j32504312496731_1_alg».proof.Proof.RefRead
import proofs.«113312_j32504312496731_1_alg».proof.Proof.RefG
import proofs.«113312_j32504312496731_1_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result array at the sums over the atoms (the kernel by its accumulation over the four
    atom tiles, the reference by its operations read one at a time), of argument arrays that agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v17_eq]
  funext i
  obtain ⟨b, o, rfl⟩ : ∃ (b : Fin 2048) (o : Fin 256), i = ix2 b o := ⟨i 0, i 1, eq_ix2 i⟩
  rw [Cert.ReferenceIdeal.RefValue.ref_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
